-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S131072x72 : S_.BroadcastsInDim S131072x72 (![] : Fin 0 → Fin S131072x72.rank)
  reducesTo_S131072x72_S_d0_1 : S131072x72.ReducesTo [0, 1] S_
  h_S_ : 0 < S_.numel
  bcast_S_S72x512 : S_.BroadcastsInDim S72x512 (![] : Fin 0 → Fin S72x512.rank)
  reducesTo_S72x512_S_d0_1 : S72x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S131072x72 .f32) (main_arg1 : FVec F S72x512 .f32) (main_arg2 : FVec F S1x512 .f32) (main_arg3 : FVec F S512x128 .f32) (main_arg4 : FVec F S1x128 .f32) : IVec S_ 1 :=
  let main_v0 : FVec F S131072x72 .f32 := Host.absf main_arg0
  let main_cst : FVec F S_ .f32 := constant S_ .f32 0x7F800000#32
  let main_v1 : FVec F S131072x72 .f32 := broadcastInDim S131072x72 ![] bcast_S_S131072x72 main_cst
  let main_v2 : IVec S131072x72 1 := cmpf .olt main_v0 main_v1
  let main_c : IVec S_ 1 := constantI S_ 1 1#1
  let main_v3 : IVec S_ 1 := (fun x v => Host.reduce IntOp.andi x v reducesTo_S131072x72_S_d0_1 h_S_) main_v2 main_c
  let main_v4 : FVec F S72x512 .f32 := Host.absf main_arg1
  let main_cst_0 : FVec F S_ .f32 := constant S_ .f32 0x7F800000#32
  let main_v5 : FVec F S72x512 .f32 := broadcastInDim S72x512 ![] bcast_S_S72x512 main_cst_0
  let main_v6 : IVec S72x512 1 := cmpf .olt main_v4 main_v5
  let main_c_1 : IVec S_ 1 := constantI S_ 1 1#1
  let main_v7 : IVec S_ 1 := (fun x v => Host.reduce IntOp.andi x v reducesTo_S72x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S131072x18 : Shape := ⟨2, ![131072, 18]⟩
abbrev S8192x72 : Shape := ⟨2, ![8192, 72]⟩
abbrev S8192x18 : Shape := ⟨2, ![8192, 18]⟩
abbrev S73x512 : Shape := ⟨2, ![73, 512]⟩
abbrev S512x32 : Shape := ⟨2, ![512, 32]⟩
abbrev S1x18 : Shape := ⟨2, ![1, 18]⟩
abbrev S2048x72 : Shape := ⟨2, ![2048, 72]⟩
abbrev S2048x1 : Shape := ⟨2, ![2048, 1]⟩
abbrev S2048x73 : Shape := ⟨2, ![2048, 73]⟩
abbrev S512x2048 : Shape := ⟨2, ![512, 2048]⟩
abbrev S32x2048 : Shape := ⟨2, ![32, 2048]⟩
abbrev S18x2048 : Shape := ⟨2, ![18, 2048]⟩
abbrev S2048x18 : Shape := ⟨2, ![2048, 18]⟩

abbrev nBuf : Space → Nat
  | .hbm => 6
  | .vmem => 8
  | .smem => 0
  | _ => 0

abbrev bufTy : (tb : Table) → Fin (tcTables nBuf tb) → BufTy
  | .hbm, ⟨0, _⟩ => ⟨S131072x72, .f32⟩
  | .hbm, ⟨1, _⟩ => ⟨S72x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S131072x18, .f32⟩
  | .local _ .vmem, ⟨0, _⟩ => ⟨S8192x72, .f32⟩
  | .local _ .vmem, ⟨1, _⟩ => ⟨S8192x72, .f32⟩
  | .local _ .vmem, ⟨2, _⟩ => ⟨S72x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S8192x18, .f32⟩
  | .local _ .vmem, ⟨7, _⟩ => ⟨S8192x18, .f32⟩
  | _, _ => ⟨S131072x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S72x512_S72x512_0_0 : ∀ a, (![0, 0] : Fin 2 → Nat) a + S72x512.size a ≤ S72x512.size a
  h_S72x512 : 0 < S72x512.numel
  inb_S1x512_S1x512_0_0 : ∀ a, (![0, 0] : Fin 2 → Nat) a + S1x512.size a ≤ S1x512.size a
  h_S1x512 : 0 < S1x512.numel
  concatenates_S72x512_S1x512_S73x512_d0 : Shape.Concatenates [S72x512, S1x512] S73x512 0
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  slices_S512x128_o0_0_S512x32 : S512x128.Slices ![0, 0] S512x32
  inb_S1x128_S1x18_0_0 : ∀ a, (![0, 0] : Fin 2 → Nat) a + S1x18.size a ≤ S1x128.size a
  h_S1x18 : 0 < S1x18.numel
  inb_S8192x72_S2048x72_0_0 : ∀ a, (![0, 0] : Fin 2 → Nat) a + S2048x72.size a ≤ S8192x72.size a
  h_S2048x72 : 0 < S2048x72.numel
  concatenates_S2048x72_S2048x1_S2048x73_d1 : Shape.Concatenates [S2048x72, S2048x1] S2048x73 1
  slices_S32x2048_o0_0_S18x2048 : S32x2048.Slices ![0, 0] S18x2048
  transposes_S18x2048_p1_0_S2048x18 : S18x2048.Transposes [1, 0] S2048x18
  broadcasts_S1x18_S2048x18 : S1x18.Broadcasts S2048x18
  inb_S8192x18_S2048x18_0_0 : ∀ a, (![0, 0] : Fin 2 → Nat) a + S2048x18.size a ≤ S8192x18.size a
  h_S2048x18 : 0 < S2048x18.numel
  inb_S8192x72_S2048x72_2048_0 : ∀ a, (![2048, 0] : Fin 2 → Nat) a + S2048x72.size a ≤ S8192x72.size a
  inb_S8192x18_S2048x18_2048_0 : ∀ a, (![2048, 0] : Fin 2 → Nat) a + S2048x18.size a ≤ S8192x18.size a
  inb_S8192x72_S2048x72_4096_0 : ∀ a, (![4096, 0] : Fin 2 → Nat) a + S2048x72.size a ≤ S8192x72.size a
  inb_S8192x18_S2048x18_4096_0 : ∀ a, (![4096, 0] : Fin 2 → Nat) a + S2048x18.size a ≤ S8192x18.size a
  inb_S8192x72_S2048x72_6144_0 : ∀ a, (![6144, 0] : Fin 2 → Nat) a + S2048x72.size a ≤ S8192x72.size a
  inb_S8192x18_S2048x18_6144_0 : ∀ a, (![6144, 0] : Fin 2 → Nat) a + S2048x18.size a ≤ S8192x18.size a
  dot_S73x512_S2048x73_S512x2048_0_1_1_0_n_n_wf : DotDims.WF S73x512 S2048x73 S512x2048 [0] [1] [1] [0] [] []
  dot_S512x32_S512x2048_S32x2048_0_0_1_1_n_n_wf : DotDims.WF S512x32 S512x2048 S32x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x72.size a ≤ S131072x72.size a
  hwx0_0 : ∀ i : grid0.Coords, EltTy.bits .f32 = 32 ∨ (Rect.block (s := S131072x72) S8192x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x512.size a ≤ S72x512.size a
  hwx0_1 : ∀ i : grid0.Coords, EltTy.bits .f32 = 32 ∨ (Rect.block (s := S72x512) S72x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x18.size a ≤ S131072x18.size a
  hwx0_5 : ∀ i : grid0.Coords, EltTy.bits .f32 = 32 ∨ (Rect.block (s := S131072x18) S8192x18.size (cc0_transform_5 i) (hinb0_5 i)).WholeWords (EltTy.packing .f32)

variable [Facts₀]

def dot_S73x512_S2048x73_S512x2048_0_1_1_0_n_n : DotDims S73x512 S2048x73 S512x2048 where
  lhsContracting := [0]
  rhsContracting := [1]
  lhsNonContracting := [1]
  rhsNonContracting := [0]
  lhsBatch := []
  rhsBatch := []
  wf := dot_S73x512_S2048x73_S512x2048_0_1_1_0_n_n_wf
def dot_S512x32_S512x2048_S32x2048_0_0_1_1_n_n : DotDims S512x32 S512x2048 S32x2048 where
  lhsContracting := [0]
  rhsContracting := [0]
  lhsNonContracting := [1]
  rhsNonContracting := [1]
  lhsBatch := []
  rhsBatch := []
  wf := dot_S512x32_S512x2048_S32x2048_0_0_1_1_n_n_wf

abbrev win0_0 : Pipeline.Window sig grid0 :=
  Pipeline.Window.ofSpec (Memref.whole main_arg0) S8192x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S72x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x18.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S131072x18 : Shape := ⟨2, ![131072, 18]⟩
abbrev S4096x72 : Shape := ⟨2, ![4096, 72]⟩
abbrev S4096x18 : Shape := ⟨2, ![4096, 18]⟩
abbrev S4096x512 : Shape := ⟨2, ![4096, 512]⟩
abbrev S4096x128 : Shape := ⟨2, ![4096, 128]⟩

abbrev nBuf : Space → Nat
  | .hbm => 6
  | .vmem => 8
  | .smem => 0
  | _ => 0

abbrev bufTy : (tb : Table) → Fin (tcTables nBuf tb) → BufTy
  | .hbm, ⟨0, _⟩ => ⟨S131072x72, .f32⟩
  | .hbm, ⟨1, _⟩ => ⟨S72x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S131072x18, .f32⟩
  | .local _ .vmem, ⟨0, _⟩ => ⟨S4096x72, .f32⟩
  | .local _ .vmem, ⟨1, _⟩ => ⟨S4096x72, .f32⟩
  | .local _ .vmem, ⟨2, _⟩ => ⟨S72x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S4096x18, .f32⟩
  | .local _ .vmem, ⟨7, _⟩ => ⟨S4096x18, .f32⟩
  | _, _ => ⟨S131072x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4096x72_S4096x72_0_0 : ∀ a, (![0, 0] : Fin 2 → Nat) a + S4096x72.size a ≤ S4096x72.size a
  h_S4096x72 : 0 < S4096x72.numel
  inb_S72x512_S72x512_0_0 : ∀ a, (![0, 0] : Fin 2 → Nat) a + S72x512.size a ≤ S72x512.size a
  h_S72x512 : 0 < S72x512.numel
  inb_S1x512_S1x512_0_0 : ∀ a, (![0, 0] : Fin 2 → Nat) a + S1x512.size a ≤ S1x512.size a
  h_S1x512 : 0 < S1x512.numel
  broadcasts_S1x512_S4096x512 : S1x512.Broadcasts S4096x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  slices_S4096x128_o0_0_S4096x18 : S4096x128.Slices ![0, 0] S4096x18
  inb_S4096x18_S4096x18_0_0 : ∀ a, (![0, 0] : Fin 2 → Nat) a + S4096x18.size a ≤ S4096x18.size a
  h_S4096x18 : 0 < S4096x18.numel
  dot_S4096x72_S72x512_S4096x512_1_0_0_1_n_n_wf : DotDims.WF S4096x72 S72x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x72.size a ≤ S131072x72.size a
  hwx0_0 : ∀ i : grid0.Coords, EltTy.bits .f32 = 32 ∨ (Rect.block (s := S131072x72) S4096x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x512.size a ≤ S72x512.size a
  hwx0_1 : ∀ i : grid0.Coords, EltTy.bits .f32 = 32 ∨ (Rect.block (s := S72x512) S72x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x18.size a ≤ S131072x18.size a
  hwx0_5 : ∀ i : grid0.Coords, EltTy.bits .f32 = 32 ∨ (Rect.block (s := S131072x18) S4096x18.size (cc0_transform_5 i) (hinb0_5 i)).WholeWords (EltTy.packing .f32)

variable [Facts₀]

def dot_S4096x72_S72x512_S4096x512_1_0_0_1_n_n : DotDims S4096x72 S72x512 S4096x512 where
  lhsContracting := [1]
  rhsContracting := [0]
  lhsNonContracting := [0]
  rhsNonContracting := [1]
  lhsBatch := []
  rhsBatch := []
  wf := dot_S4096x72_S72x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S72x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x18.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The function both programs compute, and the one algebraic step between their two spellings of it.

  A two-layer perceptron on one row of 72 inputs: hidden unit h is  max (∑ k, x k · W1 k h + b1 h) z  (z the
  floor of the rectifier, the extended real the zero word denotes), and output a is  ∑ h, hidden h · W2 h a + b2 a.

  One program adds the bias b1 after the first product. The other appends the bias as a 73rd row of W1 and a 73rd
  input equal to one, so that its first product already holds the bias, and it writes every product with the
  weight on the left. Splitting the last term off the longer sum, b1 h · 1 = b1 h and commutativity of the
  product make the two equal on the extended reals; nothing is distributed or cancelled, so no finiteness is used.
-/
import Idealize.ShloMosaic.PureOps.Ideal.Laws
import Idealize.ShloMosaic.Lib.ValueIdx

noncomputable section

namespace Mlp

open Idealize.ShloMosaic Idealize.ShloMosaic.ValueIdx
open scoped BigOperators

/-- The rectifier's floor: the extended real of the all-zero f32 word (never evaluated: both programs splat the same word). -/
abbrev floor0 : EReal := Ideal.ofBits .f32 0x00000000#32

/-- Hidden unit of one row: the rectified affine form of the row against one column of the first weight matrix. -/
def hidden (xrow : Fin 72 → EReal) (w1col : Fin 72 → EReal) (b : EReal) : EReal :=
  max ((∑ k : Fin 72, xrow k * w1col k) + b) floor0

/-- One output of one row: the hidden units against one column of the second weight matrix, plus its bias. -/
def outAt (xrow : Fin 72 → EReal) (w1 : Fin 72 → Fin 512 → EReal) (b1 : Fin 512 → EReal)
    (w2col : Fin 512 → EReal) (b2 : EReal) : EReal :=
  (∑ h : Fin 512, hidden xrow (fun k => w1 k h) (b1 h) * w2col h) + b2

/-- An action column as a lane of the padded 128-wide second layer. -/
abbrev lane (a : Fin 18) : Fin 128 := ⟨a.val, by have := a.isLt; omega⟩

/-- The whole result array, index by index, from the five argument arrays. -/
def G (x : (⟨2, ![131072, 72]⟩ : Shape).Idx → EReal) (w1 : (⟨2, ![72, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) : (⟨2, ![131072, 18]⟩ : Shape).Idx → EReal :=
  fun i => outAt (fun k => x (ix2 (i 0) k)) (fun k h => w1 (ix2 k h)) (fun h => b1 (ix2 0 h))
    (fun h => w2 (ix2 h (lane (i 1)))) (b2 (ix2 0 (lane (i 1))))

theorem G_ix2 (x : (⟨2, ![131072, 72]⟩ : Shape).Idx → EReal) (w1 : (⟨2, ![72, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) (r : Fin 131072) (a : Fin 18) :
    G x w1 b1 w2 b2 (ix2 r a) = outAt (fun k => x (ix2 r k)) (fun k h => w1 (ix2 k h)) (fun h => b1 (ix2 0 h))
      (fun h => w2 (ix2 h (lane a))) (b2 (ix2 0 (lane a))) := rfl

/-- The output depends on its five arguments only through their values. -/
theorem outAt_congr {xrow xrow' : Fin 72 → EReal} {w1 w1' : Fin 72 → Fin 512 → EReal} {b1 b1' : Fin 512 → EReal}
    {w2col w2col' : Fin 512 → EReal} {b2 b2' : EReal} (hx : ∀ k, xrow k = xrow' k) (hw1 : ∀ k h, w1 k h = w1' k h)
    (hb1 : ∀ h, b1 h = b1' h) (hw2 : ∀ h, w2col h = w2col' h) (hb2 : b2 = b2') :
    outAt xrow w1 b1 w2col b2 = outAt xrow' w1' b1' w2col' b2' := by
  obtain rfl : xrow = xrow' := funext hx
  obtain rfl : w1 = w1' := funext fun k => funext (hw1 k)
  obtain rfl : b1 = b1' := funext hb1
  obtain rfl : w2col = w2col' := funext hw2
  rw [hb2]

/-- The f32 word of one denotes the real one. -/
theorem ofBits_one_f32 : Ideal.ofBits .f32 0x3F800000#32 = 1 := by
  simp [Ideal.ofBits, Ideal.ieee, -EReal.coe_mul]; norm_num

/-- THE BIAS FOLDED INTO THE PRODUCT. With the bias as a 73rd row `A 72` of the weights and a 73rd input `X 72 = 1`,
    weight on the left in every product, the output is the one with the bias added after the product. -/
theorem outAt_of_folded (xrow : Fin 72 → EReal) (w1 : Fin 72 → Fin 512 → EReal) (b1 : Fin 512 → EReal)
    (w2col : Fin 512 → EReal) (b2 : EReal) (A : Fin 73 → Fin 512 → EReal) (X : Fin 73 → EReal)
    (hA : ∀ (k : Fin 72) (h : Fin 512), A k.castSucc h = w1 k h) (hAl : ∀ h : Fin 512, A (Fin.last 72) h = b1 h)
    (hX : ∀ k : Fin 72, X k.castSucc = xrow k) (hXl : X (Fin.last 72) = 1) :
    (∑ h : Fin 512, w2col h * max (∑ k : Fin 73, A k h * X k) floor0) + b2 = outAt xrow w1 b1 w2col b2 := by
  unfold outAt hidden
  refine congrArg (· + b2) (Finset.sum_congr rfl fun h _ => ?_)
  rw [mul_comm, Fin.sum_univ_castSucc, hAl, hXl, mul_one]
  refine congrArg (fun s => max (s + b1 h) floor0 * w2col h) (Finset.sum_congr rfl fun k _ => ?_)
  rw [hA, hX, mul_comm]

end Mlp

end
-- ==== Proof.LibDotSum.lean ====
/-
  A matrix product with ONE contracted axis, accumulated from zero, read at an output index.

  Entry j of the product is the sum, over the n positions along the contracted axis, of the left operand's entry
  times the right operand's entry at that position. Which entries those are depends on the product's dimension
  numbers (which axis of each operand is contracted, which is free); here they are given as two index functions
  `li`, `ri` of the position, with the two equations that say so, and the sum is taken over `Fin n` itself.
-/
import Idealize.ShloMosaic.PureOps.Ideal.Laws
import Idealize.ShloMosaic.Lib.ValueIdx

noncomputable section

namespace DotSum

open Idealize.ShloMosaic Idealize.ShloMosaic.ValueIdx
open scoped BigOperators

/-- The product from the zero accumulator at `j` is `∑ k : Fin n, lhs (li k) * rhs (ri k)`, when `li k` and `ri k` are
    the operand indices the dimension numbers give at output index `j` and contraction position `k`. -/
theorem matmul_zero_apply_idx {sl sr so : Shape} {φ₁ φ₂ : FTy} (d : DotDims sl sr so) (n : Nat)
    (hr : d.contr.rank = 1) (hs : d.contr.size ⟨0, by omega⟩ = n) (prec : Option ContractPrecision)
    (lhs : FVec Ideal sl φ₁) (rhs : FVec Ideal sr φ₂) (j : so.Idx) (li : Fin n → sl.Idx) (ri : Fin n → sr.Idx)
    (hl : ∀ k : Fin n, d.lhsIdx j ((contrEquiv1 d n hr hs).symm k) = li k)
    (hri : ∀ k : Fin n, d.rhsIdx j ((contrEquiv1 d n hr hs).symm k) = ri k) :
    FloatOps.matmul d prec lhs rhs (constant so .f32 0x00000000#32) j = ∑ k : Fin n, lhs (li k) * rhs (ri k) := by
  rw [Ideal.matmul_constant_zero_apply, ← Equiv.sum_comp (contrEquiv1 d n hr hs).symm]
  exact Finset.sum_congr rfl fun k _ => by rw [hl k, hri k]

end DotSum

end
-- ==== Proof.KerBlock.lean ====
/-
  The kernel's block: what one grid point's body leaves in the output block, entry by entry.

  The body treats its 8192 rows of x in four chunks of 2048 rows. For a chunk it appends a column of ones to the rows
  (73 inputs) and the bias row b1 under W1 (73 rows), forms the product TRANSPOSED — entry (h, p) is the sum over the
  73 positions k of  W1a (k, h) · xa (p, k)  —, rectifies, multiplies the first 32 columns of W2 in from the left,
  again transposed — entry (a, p) is the sum over the 512 hidden units h of  W2 (h, a) · hidden (h, p)  —, keeps rows
  0 … 17, transposes to rows × actions and adds the bias row b2. Read at row p of the chunk and action q this is
  `Mlp.outAt` of that row (the bias folded into the product: `Mlp.outAt_of_folded`); the four stores tile the block.
-/
import proofs.«159079_g2000000962606390_pallasbulk_212_29_alg».proof.Proof.Gen.KernelIdeal.Frame
import proofs.«159079_g2000000962606390_pallasbulk_212_29_alg».proof.Proof.Spec
import proofs.«159079_g2000000962606390_pallasbulk_212_29_alg».proof.Proof.LibDotSum
import Idealize.ShloMosaic.Lib.Pipeline.Value

noncomputable section

namespace Cert.KernelIdeal.Block

open Cert.KernelIdeal Cert.KernelIdeal.Gen Idealize.ShloMosaic Idealize.ShloMosaic.ValueIdx Mlp
open scoped BigOperators

/-! ## The two products' operand indices, axis by axis

  The first product contracts the left operand's axis 0 with the right operand's axis 1; the second contracts axis 0 of
  both. The output's axis 0 is the left operand's free axis (its axis 1), its axis 1 the right operand's free axis. -/

theorem lhs_first_0 (i : S512x2048.Idx) (q : dot_S73x512_S2048x73_S512x2048_0_1_1_0_n_n.contr.Idx) :
    (dot_S73x512_S2048x73_S512x2048_0_1_1_0_n_n.lhsIdx i q 0).val = (q ⟨0, by decide⟩).val :=
  dot_S73x512_S2048x73_S512x2048_0_1_1_0_n_n.lhsIdx_val_of_single rfl i q

theorem lhs_first_1 (i : S512x2048.Idx) (q : dot_S73x512_S2048x73_S512x2048_0_1_1_0_n_n.contr.Idx) :
    (dot_S73x512_S2048x73_S512x2048_0_1_1_0_n_n.lhsIdx i q 1).val = (i 0).val := by
  unfold DotDims.lhsIdx
  rw [dif_neg (show ¬(1 : Fin S73x512.rank) ∈ dot_S73x512_S2048x73_S512x2048_0_1_1_0_n_n.lhsBatch by decide), dif_pos (show (1 : Fin S73x512.rank) ∈ dot_S73x512_S2048x73_S512x2048_0_1_1_0_n_n.lhsNonContracting by decide)]
  rfl

theorem rhs_first_0 (i : S512x2048.Idx) (q : dot_S73x512_S2048x73_S512x2048_0_1_1_0_n_n.contr.Idx) :
    (dot_S73x512_S2048x73_S512x2048_0_1_1_0_n_n.rhsIdx i q 0).val = (i 1).val := by
  unfold DotDims.rhsIdx
  rw [dif_neg (show ¬(0 : Fin S2048x73.rank) ∈ dot_S73x512_S2048x73_S512x2048_0_1_1_0_n_n.rhsBatch by decide), dif_pos (show (0 : Fin S2048x73.rank) ∈ dot_S73x512_S2048x73_S512x2048_0_1_1_0_n_n.rhsNonContracting by decide)]
  rfl

theorem rhs_first_1 (i : S512x2048.Idx) (q : dot_S73x512_S2048x73_S512x2048_0_1_1_0_n_n.contr.Idx) :
    (dot_S73x512_S2048x73_S512x2048_0_1_1_0_n_n.rhsIdx i q 1).val = (q ⟨0, by decide⟩).val :=
  dot_S73x512_S2048x73_S512x2048_0_1_1_0_n_n.rhsIdx_val_of_single rfl i q

theorem lhs_second_0 (i : S32x2048.Idx) (q : dot_S512x32_S512x2048_S32x2048_0_0_1_1_n_n.contr.Idx) :
    (dot_S512x32_S512x2048_S32x2048_0_0_1_1_n_n.lhsIdx i q 0).val = (q ⟨0, by decide⟩).val :=
  dot_S512x32_S512x2048_S32x2048_0_0_1_1_n_n.lhsIdx_val_of_single rfl i q

theorem lhs_second_1 (i : S32x2048.Idx) (q : dot_S512x32_S512x2048_S32x2048_0_0_1_1_n_n.contr.Idx) :
    (dot_S512x32_S512x2048_S32x2048_0_0_1_1_n_n.lhsIdx i q 1).val = (i 0).val := by
  unfold DotDims.lhsIdx
  rw [dif_neg (show ¬(1 : Fin S512x32.rank) ∈ dot_S512x32_S512x2048_S32x2048_0_0_1_1_n_n.lhsBatch by decide), dif_pos (show (1 : Fin S512x32.rank) ∈ dot_S512x32_S512x2048_S32x2048_0_0_1_1_n_n.lhsNonContracting by decide)]
  rfl

theorem rhs_second_0 (i : S32x2048.Idx) (q : dot_S512x32_S512x2048_S32x2048_0_0_1_1_n_n.contr.Idx) :
    (dot_S512x32_S512x2048_S32x2048_0_0_1_1_n_n.rhsIdx i q 0).val = (q ⟨0, by decide⟩).val :=
  dot_S512x32_S512x2048_S32x2048_0_0_1_1_n_n.rhsIdx_val_of_single rfl i q

theorem rhs_second_1 (i : S32x2048.Idx) (q : dot_S512x32_S512x2048_S32x2048_0_0_1_1_n_n.contr.Idx) :
    (dot_S512x32_S512x2048_S32x2048_0_0_1_1_n_n.rhsIdx i q 1).val = (i 1).val := by
  unfold DotDims.rhsIdx
  rw [dif_neg (show ¬(1 : Fin S512x2048.rank) ∈ dot_S512x32_S512x2048_S32x2048_0_0_1_1_n_n.rhsBatch by decide), dif_pos (show (1 : Fin S512x2048.rank) ∈ dot_S512x32_S512x2048_S32x2048_0_0_1_1_n_n.rhsNonContracting by decide)]
  rfl

/-- The first product at (h, p): column h of the augmented weights against row p of the augmented chunk. -/
theorem first_apply (A : FVec Ideal S73x512 .bf16) (B : FVec Ideal S2048x73 .bf16) (h : Fin 512) (p : Fin 2048) :
    matmul dot_S73x512_S2048x73_S512x2048_0_1_1_0_n_n none A B (constant (F := Ideal) S512x2048 .f32 0x00000000#32) (ix2 h p)
      = ∑ k : Fin 73, A (ix2 k h) * B (ix2 p k) :=
  DotSum.matmul_zero_apply_idx dot_S73x512_S2048x73_S512x2048_0_1_1_0_n_n 73 rfl rfl none A B (ix2 h p) (fun k => ix2 k h) (fun k => ix2 p k)
    (fun k => funext fun a => Fin.ext (by
      have hk := contrEquiv1_symm_val dot_S73x512_S2048x73_S512x2048_0_1_1_0_n_n 73 rfl rfl k
      match a with
      | ⟨0, _⟩ => exact (lhs_first_0 _ _).trans hk
      | ⟨1, _⟩ => exact lhs_first_1 _ _))
    (fun k => funext fun a => Fin.ext (by
      have hk := contrEquiv1_symm_val dot_S73x512_S2048x73_S512x2048_0_1_1_0_n_n 73 rfl rfl k
      match a with
      | ⟨0, _⟩ => exact rhs_first_0 _ _
      | ⟨1, _⟩ => exact (rhs_first_1 _ _).trans hk))

/-- The second product at (a, p): column a of the second weights against the hidden units of row p. -/
theorem second_apply (A : FVec Ideal S512x32 .f32) (B : FVec Ideal S512x2048 .f32) (a : Fin 32) (p : Fin 2048) :
    matmul dot_S512x32_S512x2048_S32x2048_0_0_1_1_n_n none A B (constant (F := Ideal) S32x2048 .f32 0x00000000#32) (ix2 a p)
      = ∑ h : Fin 512, A (ix2 h a) * B (ix2 h p) :=
  DotSum.matmul_zero_apply_idx dot_S512x32_S512x2048_S32x2048_0_0_1_1_n_n 512 rfl rfl none A B (ix2 a p) (fun h => ix2 h a) (fun h => ix2 h p)
    (fun k => funext fun b => Fin.ext (by
      have hk := contrEquiv1_symm_val dot_S512x32_S512x2048_S32x2048_0_0_1_1_n_n 512 rfl rfl k
      match b with
      | ⟨0, _⟩ => exact (lhs_second_0 _ _).trans hk
      | ⟨1, _⟩ => exact lhs_second_1 _ _))
    (fun k => funext fun b => Fin.ext (by
      have hk := contrEquiv1_symm_val dot_S512x32_S512x2048_S32x2048_0_0_1_1_n_n 512 rfl rfl k
      match b with
      | ⟨0, _⟩ => exact (rhs_second_0 _ _).trans hk
      | ⟨1, _⟩ => exact rhs_second_1 _ _))

/-! ## The layout operations at an index -/

/-- An action column among the 32 columns of W2 the kernel keeps. -/
abbrev lane32 (a : Fin 18) : Fin 32 := ⟨a.val, by have := a.isLt; omega⟩

/-- The bias row broadcast down a chunk's rows reads the row's entry. -/
theorem bias_apply (v : Vec Ideal S1x18 .f32) (p : Fin 2048) (q : Fin 18) :
    broadcastTo S2048x18 v broadcasts_S1x18_S2048x18 (ix2 p q) = v (ix2 0 q) :=
  broadcastTo_apply v _ (ix2 p q) (ix2 0 q) (fun a => by match a with | ⟨0, _⟩ => rfl | ⟨1, _⟩ => rfl)

/-- The transposed result read at (p, q) is the untransposed one at (q, p). -/
theorem transpose_at (v : FVec Ideal S18x2048 .f32) (p : Fin 2048) (q : Fin 18) :
    transpose S2048x18 [1, 0] v transposes_S18x2048_p1_0_S2048x18 (ix2 p q) = v (ix2 q p) :=
  transpose_apply _ v _ (ix2 p q) (ix2 q p) (fun b => by match b with | ⟨0, _⟩ => rfl | ⟨1, _⟩ => rfl)

/-- Rows 0 … 17 of the 32-row product. -/
theorem rows18_at (v : FVec Ideal S32x2048 .f32) (q : Fin 18) (p : Fin 2048) :
    extractStridedSlice S18x2048 ![0, 0] v slices_S32x2048_o0_0_S18x2048 (ix2 q p) = v (ix2 (lane32 q) p) :=
  extractStridedSlice_apply _ v _ (ix2 q p) (ix2 (lane32 q) p)
    (fun a => by match a with | ⟨0, _⟩ => exact (Nat.zero_add _).symm | ⟨1, _⟩ => exact (Nat.zero_add _).symm)

/-- Columns 0 … 31 of the second weights. -/
theorem cols32_at (v : Vec Ideal S512x128 .f32) (h : Fin 512) (q : Fin 18) :
    k0_pay4 v (ix2 h (lane32 q)) = v (ix2 h (lane q)) := by
  unfold k0_pay4
  exact extractStridedSlice_apply ![0, 0] v slices_S512x128_o0_0_S512x32 (ix2 h (lane32 q)) (ix2 h (lane q))
    (fun a => by match a with | ⟨0, _⟩ => exact (Nat.zero_add _).symm | ⟨1, _⟩ => exact (Nat.zero_add _).symm)

/-- A chunk's rows with the column of ones appended, narrowed (the narrowing changes no value). -/
abbrev withOnes (xb : Vec Ideal S2048x72 .f32) : FVec Ideal S2048x73 .bf16 :=
  truncf .bf16 (concatenate S2048x73 1 [⟨S2048x72, xb⟩, ⟨S2048x1, broadcast S2048x1 (Scalar.ofBits (F := Ideal) .f32 0x3F800000#32)⟩]
    concatenates_S2048x72_S2048x1_S2048x73_d1) bitsLt_bf16_f32

/-- Its first 72 columns are the chunk's … -/
theorem withOnes_left (xb : Vec Ideal S2048x72 .f32) (p : Fin 2048) (k : Fin 72) :
    withOnes xb (ix2 p k.castSucc) = xb (ix2 p k) := by
  show concatenate S2048x73 1 [⟨S2048x72, xb⟩, ⟨S2048x1, broadcast S2048x1 (Scalar.ofBits (F := Ideal) .f32 0x3F800000#32)⟩]
    concatenates_S2048x72_S2048x1_S2048x73_d1 (ix2 p k.castSucc) = xb (ix2 p k)
  exact concatenate_pair_apply_left (t := S2048x73) (1 : Fin 2) xb _ concatenates_S2048x72_S2048x1_S2048x73_d1 (ix2 p k.castSucc) rfl (ix2 p k)
    (fun b => by match b with | ⟨0, _⟩ => rfl | ⟨1, _⟩ => rfl)

/-- … and its last column is one. -/
theorem withOnes_last (xb : Vec Ideal S2048x72 .f32) (p : Fin 2048) :
    withOnes xb (ix2 p (Fin.last 72)) = 1 := by
  show concatenate S2048x73 1 [⟨S2048x72, xb⟩, ⟨S2048x1, broadcast S2048x1 (Scalar.ofBits (F := Ideal) .f32 0x3F800000#32)⟩]
    concatenates_S2048x72_S2048x1_S2048x73_d1 (ix2 p (Fin.last 72)) = 1
  exact (concatenate_pair_apply_right (t := S2048x73) (1 : Fin 2) xb (broadcast S2048x1 (Scalar.ofBits (F := Ideal) .f32 0x3F800000#32))
    concatenates_S2048x72_S2048x1_S2048x73_d1 (ix2 p (Fin.last 72)) rfl rfl (ix2 p 0)
    (fun b hb => by match b with | ⟨0, _⟩ => rfl | ⟨1, _⟩ => exact absurd rfl hb) rfl).trans ofBits_one_f32

/-- The first weights with the bias row appended: the first 72 rows are W1's … -/
theorem augmented_left (v0 : Vec Ideal S72x512 .f32) (v1 : Vec Ideal S1x512 .f32) (k : Fin 72) (h : Fin 512) :
    k0_pay3 v0 v1 (ix2 k.castSucc h) = v0 (ix2 k h) := by
  show concatenate S73x512 0 [⟨S72x512, v0⟩, ⟨S1x512, v1⟩] concatenates_S72x512_S1x512_S73x512_d0 (ix2 k.castSucc h) = v0 (ix2 k h)
  exact concatenate_pair_apply_left (t := S73x512) (0 : Fin 2) v0 v1 concatenates_S72x512_S1x512_S73x512_d0 (ix2 k.castSucc h) rfl (ix2 k h)
    (fun b => by match b with | ⟨0, _⟩ => rfl | ⟨1, _⟩ => rfl)

/-- … and the last row is b1. -/
theorem augmented_last (v0 : Vec Ideal S72x512 .f32) (v1 : Vec Ideal S1x512 .f32) (h : Fin 512) :
    k0_pay3 v0 v1 (ix2 (Fin.last 72) h) = v1 (ix2 0 h) := by
  show concatenate S73x512 0 [⟨S72x512, v0⟩, ⟨S1x512, v1⟩] concatenates_S72x512_S1x512_S73x512_d0 (ix2 (Fin.last 72) h) = v1 (ix2 0 h)
  exact concatenate_pair_apply_right (t := S73x512) (0 : Fin 2) v0 v1 concatenates_S72x512_S1x512_S73x512_d0 (ix2 (Fin.last 72) h) rfl rfl (ix2 0 h)
    (fun b hb => by match b with | ⟨0, _⟩ => exact absurd rfl hb | ⟨1, _⟩ => rfl) rfl

/-! ## A chunk's result -/

/-- One chunk's payload at (p, q), as the kernel spells it: weights on the left, the bias inside the first product. -/
theorem pay_apply (v3 : FVec Ideal S73x512 .bf16) (v5 : FVec Ideal S512x32 .f32) (v6 : Vec Ideal S1x18 .f32)
    (xb : Vec Ideal S2048x72 .f32) (p : Fin 2048) (q : Fin 18) :
    k0_pay1 v3 v5 v6 xb (ix2 p q)
      = (∑ h : Fin 512, v5 (ix2 h (lane32 q)) * max (∑ k : Fin 73, v3 (ix2 k h) * withOnes xb (ix2 p k)) floor0)
          + v6 (ix2 0 q) := by
  unfold k0_pay1
  rw [addf_apply, bias_apply, transpose_at, rows18_at, second_apply]
  refine congrArg (· + v6 (ix2 0 q)) (Finset.sum_congr rfl fun h _ => ?_)
  rw [maximumf_apply, first_apply, broadcast_apply]
  rfl

/-- THE CHUNK'S RESULT AT (p, q): the perceptron's output q on row p of the chunk, from the loaded parameter blocks. -/
theorem chunk_apply (v0 : Vec Ideal S72x512 .f32) (v1 : Vec Ideal S1x512 .f32) (v4 : Vec Ideal S512x128 .f32)
    (v6 : Vec Ideal S1x18 .f32) (xb : Vec Ideal S2048x72 .f32) (p : Fin 2048) (q : Fin 18) :
    k0_pay1 (k0_pay3 v0 v1) (k0_pay4 v4) v6 xb (ix2 p q)
      = outAt (fun k => xb (ix2 p k)) (fun k h => v0 (ix2 k h)) (fun h => v1 (ix2 0 h))
          (fun h => v4 (ix2 h (lane q))) (v6 (ix2 0 q)) := by
  rw [pay_apply]
  refine (outAt_of_folded (fun k => xb (ix2 p k)) (fun k h => v0 (ix2 k h)) (fun h => v1 (ix2 0 h))
    (fun h => k0_pay4 v4 (ix2 h (lane32 q))) (v6 (ix2 0 q)) (fun k h => k0_pay3 v0 v1 (ix2 k h)) (fun k => withOnes xb (ix2 p k))
    (fun k h => augmented_left v0 v1 k h) (fun h => augmented_last v0 v1 h) (fun k => withOnes_left xb p k) (withOnes_last xb p)).trans ?_
  exact outAt_congr (fun _ => rfl) (fun _ _ => rfl) (fun _ => rfl) (fun h => cols32_at v4 h q) rfl

/-- The four chunks' payloads are one function of the chunk (the printed text repeats it per chunk). -/
theorem pay2_eq : @k0_pay2 Ideal _ = k0_pay1 := rfl
theorem pay5_eq (v0 : Vec Ideal S72x512 .f32) (v1 : Vec Ideal S1x512 .f32) (v4 : Vec Ideal S512x128 .f32)
    (v6 : Vec Ideal S1x18 .f32) (xb : Vec Ideal S2048x72 .f32) :
    k0_pay5 v0 v1 v4 v6 xb = k0_pay1 (k0_pay3 v0 v1) (k0_pay4 v4) v6 xb := rfl
theorem pay6_eq (v0 : Vec Ideal S72x512 .f32) (v1 : Vec Ideal S1x512 .f32) (v4 : Vec Ideal S512x128 .f32)
    (v6 : Vec Ideal S1x18 .f32) (xb : Vec Ideal S2048x72 .f32) :
    k0_pay6 v0 v1 v4 v6 xb = k0_pay1 (k0_pay3 v0 v1) (k0_pay4 v4) v6 xb := rfl

/-! ## The block -/

/-- The perceptron on the rows of a block of 8192 rows of x, with the parameter blocks whole. -/
def blockFn (x0 : Vec Ideal S8192x72 .f32) (x1 : Vec Ideal S72x512 .f32) (x2 : Vec Ideal S1x512 .f32)
    (x3 : Vec Ideal S512x128 .f32) (x4 : Vec Ideal S1x128 .f32) : S8192x18.Idx → EReal :=
  fun y => outAt (fun k => x0 (ix2 (y 0) k)) (fun k h => x1 (ix2 k h)) (fun h => x2 (ix2 0 h))
    (fun h => x3 (ix2 h (lane (y 1)))) (x4 (ix2 0 (lane (y 1))))

/-- THE OUTPUT BLOCK after the body is that function: each of the four stores writes its 2048 rows of it, and they tile
    the block. -/
theorem out_eq (x0 : Vec Ideal S8192x72 .f32) (x1 : Vec Ideal S72x512 .f32) (x2 : Vec Ideal S1x512 .f32)
    (x3 : Vec Ideal S512x128 .f32) (x4 : Vec Ideal S1x128 .f32) (y : S8192x18.Idx) :
    out0_5 x0 x1 x2 x3 x4 y = blockFn x0 x1 x2 x3 x4 y := by
  have hz : (![0, 0] : Fin 2 → Nat) = fun _ => 0 := funext fun a => by fin_cases a <;> rfl
  unfold out0_5
  refine View.canon_apply_of_pieces (Val := Elt Ideal) (S := S8192x18) (e := .f32) (blockFn x0 x1 x2 x3 x4) _ ?_ y (cover0_5 _ _ _ _ y)
  intro pc hpc
  simp only [List.mem_cons, List.mem_singleton, List.not_mem_nil, or_false] at hpc
  rcases hpc with rfl | rfl | rfl | rfl
  · intro x
    obtain ⟨p, q, rfl⟩ : ∃ (p : Fin 2048) (q : Fin 18), x = ix2 p q := ⟨x 0, x 1, eq_ix2 x⟩
    show k0_pay2 (k0_pay3 (View.ld x1 r0_0) (View.ld x2 r0_1)) (k0_pay4 (View.ld x3 r0_2)) (View.ld x4 r0_3) (View.ld x0 r0_10) (ix2 p q) = blockFn x0 x1 x2 x3 x4 (r0_11.emb (ix2 p q))
    refine (chunk_apply (View.ld x1 r0_0) (View.ld x2 r0_1) (View.ld x3 r0_2) (View.ld x4 r0_3) (View.ld x0 r0_10) p q).trans ?_
    refine outAt_congr (fun k => ?_) (fun k h => ?_) (fun h => ?_) (fun h => ?_) ?_
    · show x0 (r0_10.emb (ix2 p k)) = x0 (ix2 ((r0_11.emb (ix2 p q)) 0) k)
      exact congrArg x0 (funext fun a => Fin.ext (by match a with | ⟨0, _⟩ => rfl | ⟨1, _⟩ => exact (Nat.zero_add _).trans (Nat.one_mul _)))
    · rw [View.ld_unit_zero (S := S72x512) hz]
    · rw [View.ld_unit_zero (S := S1x512) hz]
    · rw [View.ld_unit_zero (S := S512x128) hz]
      exact congrArg x3 (funext fun a => Fin.ext (by match a with | ⟨0, _⟩ => rfl | ⟨1, _⟩ => exact ((Nat.zero_add _).trans (Nat.one_mul _)).symm))
    · show x4 (r0_3.emb (ix2 0 q)) = x4 (ix2 0 (lane ((r0_11.emb (ix2 p q)) 1)))
      exact congrArg x4 (funext fun a => Fin.ext (by match a with | ⟨0, _⟩ => rfl | ⟨1, _⟩ => rfl))
  · intro x
    obtain ⟨p, q, rfl⟩ : ∃ (p : Fin 2048) (q : Fin 18), x = ix2 p q := ⟨x 0, x 1, eq_ix2 x⟩
    show k0_pay1 (k0_pay3 (View.ld x1 r0_0) (View.ld x2 r0_1)) (k0_pay4 (View.ld x3 r0_2)) (View.ld x4 r0_3) (View.ld x0 r0_8) (ix2 p q) = blockFn x0 x1 x2 x3 x4 (r0_9.emb (ix2 p q))
    refine (chunk_apply (View.ld x1 r0_0) (View.ld x2 r0_1) (View.ld x3 r0_2) (View.ld x4 r0_3) (View.ld x0 r0_8) p q).trans ?_
    refine outAt_congr (fun k => ?_) (fun k h => ?_) (fun h => ?_) (fun h => ?_) ?_
    · show x0 (r0_8.emb (ix2 p k)) = x0 (ix2 ((r0_9.emb (ix2 p q)) 0) k)
      exact congrArg x0 (funext fun a => Fin.ext (by match a with | ⟨0, _⟩ => rfl | ⟨1, _⟩ => exact (Nat.zero_add _).trans (Nat.one_mul _)))
    · rw [View.ld_unit_zero (S := S72x512) hz]
    · rw [View.ld_unit_zero (S := S1x512) hz]
    · rw [View.ld_unit_zero (S := S512x128) hz]
      exact congrArg x3 (funext fun a => Fin.ext (by match a with | ⟨0, _⟩ => rfl | ⟨1, _⟩ => exact ((Nat.zero_add _).trans (Nat.one_mul _)).symm))
    · show x4 (r0_3.emb (ix2 0 q)) = x4 (ix2 0 (lane ((r0_9.emb (ix2 p q)) 1)))
      exact congrArg x4 (funext fun a => Fin.ext (by match a with | ⟨0, _⟩ => rfl | ⟨1, _⟩ => rfl))
  · intro x
    obtain ⟨p, q, rfl⟩ : ∃ (p : Fin 2048) (q : Fin 18), x = ix2 p q := ⟨x 0, x 1, eq_ix2 x⟩
    show k0_pay6 (View.ld x1 r0_0) (View.ld x2 r0_1) (View.ld x3 r0_2) (View.ld x4 r0_3) (View.ld x0 r0_6) (ix2 p q) = blockFn x0 x1 x2 x3 x4 (r0_7.emb (ix2 p q))
    refine (chunk_apply (View.ld x1 r0_0) (View.ld x2 r0_1) (View.ld x3 r0_2) (View.ld x4 r0_3) (View.ld x0 r0_6) p q).trans ?_
    refine outAt_congr (fun k => ?_) (fun k h => ?_) (fun h => ?_) (fun h => ?_) ?_
    · show x0 (r0_6.emb (ix2 p k)) = x0 (ix2 ((r0_7.emb (ix2 p q)) 0) k)
      exact congrArg x0 (funext fun a => Fin.ext (by match a with | ⟨0, _⟩ => rfl | ⟨1, _⟩ => exact (Nat.zero_add _).trans (Nat.one_mul _)))
    · rw [View.ld_unit_zero (S := S72x512) hz]
    · rw [View.ld_unit_zero (S := S1x512) hz]
    · rw [View.ld_unit_zero (S := S512x128) hz]
      exact congrArg x3 (funext fun a => Fin.ext (by match a with | ⟨0, _⟩ => rfl | ⟨1, _⟩ => exact ((Nat.zero_add _).trans (Nat.one_mul _)).symm))
    · show x4 (r0_3.emb (ix2 0 q)) = x4 (ix2 0 (lane ((r0_7.emb (ix2 p q)) 1)))
      exact congrArg x4 (funext fun a => Fin.ext (by match a with | ⟨0, _⟩ => rfl | ⟨1, _⟩ => rfl))
  · intro x
    obtain ⟨p, q, rfl⟩ : ∃ (p : Fin 2048) (q : Fin 18), x = ix2 p q := ⟨x 0, x 1, eq_ix2 x⟩
    show k0_pay5 (View.ld x1 r0_0) (View.ld x2 r0_1) (View.ld x3 r0_2) (View.ld x4 r0_3) (View.ld x0 r0_4) (ix2 p q) = blockFn x0 x1 x2 x3 x4 (r0_5.emb (ix2 p q))
    refine (chunk_apply (View.ld x1 r0_0) (View.ld x2 r0_1) (View.ld x3 r0_2) (View.ld x4 r0_3) (View.ld x0 r0_4) p q).trans ?_
    refine outAt_congr (fun k => ?_) (fun k h => ?_) (fun h => ?_) (fun h => ?_) ?_
    · show x0 (r0_4.emb (ix2 p k)) = x0 (ix2 ((r0_5.emb (ix2 p q)) 0) k)
      exact congrArg x0 (funext fun a => Fin.ext (by match a with | ⟨0, _⟩ => rfl | ⟨1, _⟩ => exact (Nat.zero_add _).trans (Nat.one_mul _)))
    · rw [View.ld_unit_zero (S := S72x512) hz]
    · rw [View.ld_unit_zero (S := S1x512) hz]
    · rw [View.ld_unit_zero (S := S512x128) hz]
      exact congrArg x3 (funext fun a => Fin.ext (by match a with | ⟨0, _⟩ => rfl | ⟨1, _⟩ => exact ((Nat.zero_add _).trans (Nat.one_mul _)).symm))
    · show x4 (r0_3.emb (ix2 0 q)) = x4 (ix2 0 (lane ((r0_5.emb (ix2 p q)) 1)))
      exact congrArg x4 (funext fun a => Fin.ext (by match a with | ⟨0, _⟩ => rfl | ⟨1, _⟩ => rfl))

end Cert.KernelIdeal.Block

end
-- ==== Proof.KerArray.lean ====
/-
  The kernel's result array: the 16 grid points' output blocks, laid end to end, are the perceptron of the whole
  argument arrays.

  Point t reads rows 8192 t … 8192 t + 8191 of x and the four parameter arrays whole, and writes rows
  8192 t … 8192 t + 8191 of the result. Entry (p, q) of what it writes is the perceptron's output q on row p of its
  block of x, which is row 8192 t + p of x: so it is entry (8192 t + p, q) of `Mlp.G` of the arguments. Row r of the
  result lies in the block of point r / 8192, so the blocks cover the array.
-/
import proofs.«159079_g2000000962606390_pallasbulk_212_29_alg».proof.Proof.Gen.KernelIdeal.Value
import proofs.«159079_g2000000962606390_pallasbulk_212_29_alg».proof.Proof.KerBlock

noncomputable section

namespace Cert.KernelIdeal.Whole

open Cert.KernelIdeal Cert.KernelIdeal.Gen Idealize.ShloMosaic Idealize.ShloMosaic.TcCoe Idealize.SL.Sem
open Idealize.ShloMosaic.ValueIdx Mlp
open Idealize.ShloMosaic.Pipeline (Dat)

variable (m : (ℓ : Loc nD τ sig) → Buf (Elt Ideal) ℓ) (ρ : Dev nD → PrngReg)

/-- The perceptron of the argument arrays as launched on core `c`. -/
abbrev result (c : Dev nD) : S131072x18.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps over the grid: x and the result move one block of rows per point; the parameters stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `x` of window 0's block at point `t` is the argument's entry at the block's offset plus `x`, axis by axis. -/
theorem iblk0_apply (c : Dev nD) (t : Fin cfg0.N) (x : S8192x72.Idx) (k : S131072x72.Idx)
    (hk0 : (k 0).val = win0_0.index t (0 : Fin 2) * 8192 + 1 * (x 0).val)
    (hk1 : (k 1).val = win0_0.index t (1 : Fin 2) * 72 + 1 * (x 1).val) :
    (iblk m c 0 t : Vec Ideal S8192x72 .f32) x = (m ((c : Thread nD τ).loc main_arg0) : S131072x72.Idx → EReal) k := by
  unfold iblk
  rw [View.read_apply]
  show V m c main_arg0 _ = m (c.tc.loc main_arg0) _
  unfold V
  congr 1
  funext a
  apply Fin.ext
  match a with
  | ⟨0, _⟩ => exact hk0.symm
  | ⟨1, _⟩ => exact hk1.symm

/-- Entry `x` of window 1's block at point `t` is the argument's entry at the block's offset plus `x`, axis by axis. -/
theorem iblk1_apply (c : Dev nD) (t : Fin cfg0.N) (x : S72x512.Idx) (k : S72x512.Idx)
    (hk0 : (k 0).val = win0_1.index t (0 : Fin 2) * 72 + 1 * (x 0).val)
    (hk1 : (k 1).val = win0_1.index t (1 : Fin 2) * 512 + 1 * (x 1).val) :
    (iblk m c 1 t : Vec Ideal S72x512 .f32) x = (m ((c : Thread nD τ).loc main_arg1) : S72x512.Idx → EReal) k := by
  unfold iblk
  rw [View.read_apply]
  show V m c main_arg1 _ = m (c.tc.loc main_arg1) _
  unfold V
  congr 1
  funext a
  apply Fin.ext
  match a with
  | ⟨0, _⟩ => exact hk0.symm
  | ⟨1, _⟩ => exact hk1.symm

/-- Entry `x` of window 2's block at point `t` is the argument's entry at the block's offset plus `x`, axis by axis. -/
theorem iblk2_apply (c : Dev nD) (t : Fin cfg0.N) (x : S1x512.Idx) (k : S1x512.Idx)
    (hk0 : (k 0).val = win0_2.index t (0 : Fin 2) * 1 + 1 * (x 0).val)
    (hk1 : (k 1).val = win0_2.index t (1 : Fin 2) * 512 + 1 * (x 1).val) :
    (iblk m c 2 t : Vec Ideal S1x512 .f32) x = (m ((c : Thread nD τ).loc main_arg2) : S1x512.Idx → EReal) k := by
  unfold iblk
  rw [View.read_apply]
  show V m c main_arg2 _ = m (c.tc.loc main_arg2) _
  unfold V
  congr 1
  funext a
  apply Fin.ext
  match a with
  | ⟨0, _⟩ => exact hk0.symm
  | ⟨1, _⟩ => exact hk1.symm

/-- Entry `x` of window 3's block at point `t` is the argument's entry at the block's offset plus `x`, axis by axis. -/
theorem iblk3_apply (c : Dev nD) (t : Fin cfg0.N) (x : S512x128.Idx) (k : S512x128.Idx)
    (hk0 : (k 0).val = win0_3.index t (0 : Fin 2) * 512 + 1 * (x 0).val)
    (hk1 : (k 1).val = win0_3.index t (1 : Fin 2) * 128 + 1 * (x 1).val) :
    (iblk m c 3 t : Vec Ideal S512x128 .f32) x = (m ((c : Thread nD τ).loc main_arg3) : S512x128.Idx → EReal) k := by
  unfold iblk
  rw [View.read_apply]
  show V m c main_arg3 _ = m (c.tc.loc main_arg3) _
  unfold V
  congr 1
  funext a
  apply Fin.ext
  match a with
  | ⟨0, _⟩ => exact hk0.symm
  | ⟨1, _⟩ => exact hk1.symm

/-- Entry `x` of window 4's block at point `t` is the argument's entry at the block's offset plus `x`, axis by axis. -/
theorem iblk4_apply (c : Dev nD) (t : Fin cfg0.N) (x : S1x128.Idx) (k : S1x128.Idx)
    (hk0 : (k 0).val = win0_4.index t (0 : Fin 2) * 1 + 1 * (x 0).val)
    (hk1 : (k 1).val = win0_4.index t (1 : Fin 2) * 128 + 1 * (x 1).val) :
    (iblk m c 4 t : Vec Ideal S1x128 .f32) x = (m ((c : Thread nD τ).loc main_arg4) : S1x128.Idx → EReal) k := by
  unfold iblk
  rw [View.read_apply]
  show V m c main_arg4 _ = m (c.tc.loc main_arg4) _
  unfold V
  congr 1
  funext a
  apply Fin.ext
  match a with
  | ⟨0, _⟩ => exact hk0.symm
  | ⟨1, _⟩ => exact hk1.symm

/-- WHAT POINT `t` WRITES BACK is block `t` of the perceptron of the argument arrays. -/
theorem flushed_eq (c : Dev nD) (t : Fin cfg0.N) :
    (dats m 0 c).flushed 5 t = ((cfg0.win 5).blk t).view.read (Elt Ideal) (result m c) := by
  rw [Value.flushed5]
  obtain ⟨e00, e01, e10, e11, e20, e21, e30, e31, e40, e41, e50, e51⟩ := idx_facts t
  have key : ∀ j : S8192x18.Idx, out0_5 (iblk m c 0 t) (iblk m c 1 t) (iblk m c 2 t) (iblk m c 3 t) (iblk m c 4 t) j
      = result m c (((cfg0.win 5).blk t).view.emb j) := by
    intro j
    refine (Block.out_eq (iblk m c 0 t) (iblk m c 1 t) (iblk m c 2 t) (iblk m c 3 t) (iblk m c 4 t) j).trans ?_
    obtain ⟨p, q, rfl⟩ : ∃ (p : Fin 8192) (q : Fin 18), j = ix2 p q := ⟨j 0, j 1, eq_ix2 j⟩
    unfold Block.blockFn
    refine outAt_congr (fun k => ?_) (fun k h => ?_) (fun h => ?_) (fun h => ?_) ?_
    · refine iblk0_apply m c t (ix2 p k) _ ?_ ?_
      · show win0_5.index t (0 : Fin 2) * 8192 + 1 * p.val = win0_0.index t (0 : Fin 2) * 8192 + 1 * p.val
        rw [e50, e00]
      · show k.val = win0_0.index t (1 : Fin 2) * 72 + 1 * k.val
        rw [e01]; omega
    · refine iblk1_apply m c t (ix2 k h) _ ?_ ?_
      · show k.val = win0_1.index t (0 : Fin 2) * 72 + 1 * k.val
        rw [e10]; omega
      · show h.val = win0_1.index t (1 : Fin 2) * 512 + 1 * h.val
        rw [e11]; omega
    · refine iblk2_apply m c t (ix2 0 h) _ ?_ ?_
      · show 0 = win0_2.index t (0 : Fin 2) * 1 + 1 * 0
        rw [e20]
      · show h.val = win0_2.index t (1 : Fin 2) * 512 + 1 * h.val
        rw [e21]; omega
    · refine iblk3_apply m c t (ix2 h (lane q)) _ ?_ ?_
      · show h.val = win0_3.index t (0 : Fin 2) * 512 + 1 * h.val
        rw [e30]; omega
      · show win0_5.index t (1 : Fin 2) * 18 + 1 * q.val = win0_3.index t (1 : Fin 2) * 128 + 1 * q.val
        rw [e51, e31]
    · refine iblk4_apply m c t (ix2 0 (lane q)) _ ?_ ?_
      · show 0 = win0_4.index t (0 : Fin 2) * 1 + 1 * 0
        rw [e40]
      · show win0_5.index t (1 : Fin 2) * 18 + 1 * q.val = win0_4.index t (1 : Fin 2) * 128 + 1 * q.val
        rw [e51, e41]
  exact funext key

/-- An index of the result is in point `t`'s block iff each coordinate is in the block's range on its axis. -/
theorem mem_blk (t : Fin cfg0.N) (i : S131072x18.Idx) :
    i ∈ ((cfg0.win 5).blk t).view.set ↔ ∀ a : Fin 2, win0_5.index t a * S8192x18.size a ≤ (i a).val
      ∧ (i a).val < win0_5.index t a * S8192x18.size a + S8192x18.size a := by
  show i ∈ ((View.whole main_v0).slice (win0_5.rect t)).set ↔ _
  rw [View.set_slice_whole, Rect.mem_set_unit]
  exact Iff.rfl

/-- THE RESULT ARRAY after the run: the perceptron of the argument arrays. Row r is in the block of point r / 8192. -/
theorem final (c : Dev nD) : (dats m 0 c).arrAt 5 cfg0.N = result m c :=
  (dats m 0 c).arrAt_eq_of_cover 5 (result m c) (fun t _ => flushed_eq m c t) fun i => by
    have hi0 : (i 0).val < 131072 := (i 0).isLt
    have hi1 : (i 1).val < 18 := (i 1).isLt
    have hN : cfg0.N = 16 := N_0
    let t : Fin cfg0.N := ⟨(i 0).val / 8192, by rw [hN]; omega⟩
    obtain ⟨-, -, -, -, -, -, -, -, -, -, e50, e51⟩ := idx_facts t
    refine ⟨t, flush0_5 t, ?_⟩
    rw [mem_blk]
    intro a
    match a with
    | ⟨0, _⟩ =>
      show win0_5.index t (0 : Fin 2) * 8192 ≤ (i 0).val ∧ (i 0).val < win0_5.index t (0 : Fin 2) * 8192 + 8192
      rw [e50]; show (i 0).val / 8192 * 8192 ≤ (i 0).val ∧ (i 0).val < (i 0).val / 8192 * 8192 + 8192; omega
    | ⟨1, _⟩ =>
      show win0_5.index t (1 : Fin 2) * 18 ≤ (i 1).val ∧ (i 1).val < win0_5.index t (1 : Fin 2) * 18 + 18
      rw [e51]; omega

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefBlock.lean ====
/-
  The reference's block: what one grid point's body leaves in the output block, entry by entry.

  The body takes a block of 4096 rows of x, forms  x · W1  (contracting the 72 inputs), adds the bias row b1 to every
  row, rectifies, forms  hidden · W2  (contracting the 512 hidden units) over all 128 padded lanes, adds the bias row
  b2, and keeps lanes 0 … 17. Read at row p and lane q this is `Mlp.outAt` of row p of the block.
-/
import proofs.«159079_g2000000962606390_pallasbulk_212_29_alg».proof.Proof.Gen.ReferenceIdeal.Frame
import proofs.«159079_g2000000962606390_pallasbulk_212_29_alg».proof.Proof.Spec
import proofs.«159079_g2000000962606390_pallasbulk_212_29_alg».proof.Proof.LibDotSum
import Idealize.ShloMosaic.Lib.Pipeline.Value

noncomputable section

namespace Cert.ReferenceIdeal.Block

open Cert.ReferenceIdeal Cert.ReferenceIdeal.Gen Idealize.ShloMosaic Idealize.ShloMosaic.ValueIdx Mlp
open scoped BigOperators

/-! ## The two products' operand indices, axis by axis

  Both products contract the left operand's axis 1 with the right operand's axis 0; the output's axis 0 is the left
  operand's free axis and its axis 1 the right operand's. -/

theorem lhs_first_0 (i : S4096x512.Idx) (q : dot_S4096x72_S72x512_S4096x512_1_0_0_1_n_n.contr.Idx) :
    (dot_S4096x72_S72x512_S4096x512_1_0_0_1_n_n.lhsIdx i q 0).val = (i 0).val := by
  unfold DotDims.lhsIdx
  rw [dif_neg (show ¬(0 : Fin S4096x72.rank) ∈ dot_S4096x72_S72x512_S4096x512_1_0_0_1_n_n.lhsBatch by decide), dif_pos (show (0 : Fin S4096x72.rank) ∈ dot_S4096x72_S72x512_S4096x512_1_0_0_1_n_n.lhsNonContracting by decide)]
  rfl

theorem lhs_first_1 (i : S4096x512.Idx) (q : dot_S4096x72_S72x512_S4096x512_1_0_0_1_n_n.contr.Idx) :
    (dot_S4096x72_S72x512_S4096x512_1_0_0_1_n_n.lhsIdx i q 1).val = (q ⟨0, by decide⟩).val :=
  dot_S4096x72_S72x512_S4096x512_1_0_0_1_n_n.lhsIdx_val_of_single rfl i q

theorem rhs_first_0 (i : S4096x512.Idx) (q : dot_S4096x72_S72x512_S4096x512_1_0_0_1_n_n.contr.Idx) :
    (dot_S4096x72_S72x512_S4096x512_1_0_0_1_n_n.rhsIdx i q 0).val = (q ⟨0, by decide⟩).val :=
  dot_S4096x72_S72x512_S4096x512_1_0_0_1_n_n.rhsIdx_val_of_single rfl i q

theorem rhs_first_1 (i : S4096x512.Idx) (q : dot_S4096x72_S72x512_S4096x512_1_0_0_1_n_n.contr.Idx) :
    (dot_S4096x72_S72x512_S4096x512_1_0_0_1_n_n.rhsIdx i q 1).val = (i 1).val := by
  unfold DotDims.rhsIdx
  rw [dif_neg (show ¬(1 : Fin S72x512.rank) ∈ dot_S4096x72_S72x512_S4096x512_1_0_0_1_n_n.rhsBatch by decide), dif_pos (show (1 : Fin S72x512.rank) ∈ dot_S4096x72_S72x512_S4096x512_1_0_0_1_n_n.rhsNonContracting by decide)]
  rfl

theorem lhs_second_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl

theorem lhs_second_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q

theorem rhs_second_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q

theorem rhs_second_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The first product at (p, h): row p of the block against column h of W1. -/
theorem first_apply (A : FVec Ideal S4096x72 .f32) (B : FVec Ideal S72x512 .f32) (p : Fin 4096) (h : Fin 512) :
    matmul dot_S4096x72_S72x512_S4096x512_1_0_0_1_n_n none A B (constant (F := Ideal) S4096x512 .f32 0x00000000#32) (ix2 p h)
      = ∑ k : Fin 72, A (ix2 p k) * B (ix2 k h) :=
  DotSum.matmul_zero_apply_idx dot_S4096x72_S72x512_S4096x512_1_0_0_1_n_n 72 rfl rfl none A B (ix2 p h) (fun k => ix2 p k) (fun k => ix2 k h)
    (fun k => funext fun a => Fin.ext (by
      have hk := contrEquiv1_symm_val dot_S4096x72_S72x512_S4096x512_1_0_0_1_n_n 72 rfl rfl k
      match a with
      | ⟨0, _⟩ => exact lhs_first_0 _ _
      | ⟨1, _⟩ => exact (lhs_first_1 _ _).trans hk))
    (fun k => funext fun a => Fin.ext (by
      have hk := contrEquiv1_symm_val dot_S4096x72_S72x512_S4096x512_1_0_0_1_n_n 72 rfl rfl k
      match a with
      | ⟨0, _⟩ => exact (rhs_first_0 _ _).trans hk
      | ⟨1, _⟩ => exact rhs_first_1 _ _))

/-- The second product at (p, l): the hidden units of row p against column l of W2. -/
theorem second_apply (A : FVec Ideal S4096x512 .f32) (B : FVec Ideal S512x128 .f32) (p : Fin 4096) (l : Fin 128) :
    matmul dot_S4096x512_S512x128_S4096x128_1_0_0_1_n_n none A B (constant (F := Ideal) S4096x128 .f32 0x00000000#32) (ix2 p l)
      = ∑ h : Fin 512, A (ix2 p h) * B (ix2 h l) :=
  DotSum.matmul_zero_apply_idx dot_S4096x512_S512x128_S4096x128_1_0_0_1_n_n 512 rfl rfl none A B (ix2 p l) (fun h => ix2 p h) (fun h => ix2 h l)
    (fun k => funext fun a => Fin.ext (by
      have hk := contrEquiv1_symm_val dot_S4096x512_S512x128_S4096x128_1_0_0_1_n_n 512 rfl rfl k
      match a with
      | ⟨0, _⟩ => exact lhs_second_0 _ _
      | ⟨1, _⟩ => exact (lhs_second_1 _ _).trans hk))
    (fun k => funext fun a => Fin.ext (by
      have hk := contrEquiv1_symm_val dot_S4096x512_S512x128_S4096x128_1_0_0_1_n_n 512 rfl rfl k
      match a with
      | ⟨0, _⟩ => exact (rhs_second_0 _ _).trans hk
      | ⟨1, _⟩ => exact rhs_second_1 _ _))

/-- A bias row broadcast down the 4096 rows reads the row's entry, for the hidden width … -/
theorem bias1_apply (v : Vec Ideal S1x512 .f32) (p : Fin 4096) (h : Fin 512) :
    broadcastTo S4096x512 v broadcasts_S1x512_S4096x512 (ix2 p h) = v (ix2 0 h) :=
  broadcastTo_apply v _ (ix2 p h) (ix2 0 h) (fun a => by match a with | ⟨0, _⟩ => rfl | ⟨1, _⟩ => rfl)

/-- … and for the padded output width. -/
theorem bias2_apply (v : Vec Ideal S1x128 .f32) (p : Fin 4096) (l : Fin 128) :
    broadcastTo S4096x128 v broadcasts_S1x128_S4096x128 (ix2 p l) = v (ix2 0 l) :=
  broadcastTo_apply v _ (ix2 p l) (ix2 0 l) (fun a => by match a with | ⟨0, _⟩ => rfl | ⟨1, _⟩ => rfl)

/-- THE BODY'S RESULT AT (p, q): the perceptron's output q on row p of the block. -/
theorem pay_apply (v0 : Vec Ideal S4096x72 .f32) (v1 : Vec Ideal S72x512 .f32) (v3 : Vec Ideal S1x512 .f32)
    (v8 : Vec Ideal S512x128 .f32) (v10 : Vec Ideal S1x128 .f32) (p : Fin 4096) (q : Fin 18) :
    k0_pay1 v0 v1 v3 v8 v10 (ix2 p q)
      = outAt (fun k => v0 (ix2 p k)) (fun k h => v1 (ix2 k h)) (fun h => v3 (ix2 0 h))
          (fun h => v8 (ix2 h (lane q))) (v10 (ix2 0 (lane q))) := by
  unfold k0_pay1
  rw [extractStridedSlice_apply _ _ _ (ix2 p q) (ix2 p (lane q))
    (fun a => by match a with | ⟨0, _⟩ => exact (Nat.zero_add _).symm | ⟨1, _⟩ => exact (Nat.zero_add _).symm)]
  rw [addf_apply, second_apply, bias2_apply]
  unfold outAt Mlp.hidden
  refine congrArg (· + v10 (ix2 0 (lane q))) (Finset.sum_congr rfl fun h _ => ?_)
  rw [maximumf_apply, addf_apply, first_apply, bias1_apply, broadcast_apply]
  rfl

/-- So the output block after the body, read at (p, q): the one store covers the block. -/
theorem out_apply (x0 : Vec Ideal S4096x72 .f32) (x1 : Vec Ideal S72x512 .f32) (x2 : Vec Ideal S1x512 .f32)
    (x3 : Vec Ideal S512x128 .f32) (x4 : Vec Ideal S1x128 .f32) (p : Fin 4096) (q : Fin 18) :
    out0_5 x0 x1 x2 x3 x4 (ix2 p q)
      = outAt (fun k => x0 (ix2 p k)) (fun k h => x1 (ix2 k h)) (fun h => x2 (ix2 0 h))
          (fun h => x3 (ix2 h (lane q))) (x4 (ix2 0 (lane q))) := by
  have hz : (![0, 0] : Fin 2 → Nat) = fun _ => 0 := funext fun a => by fin_cases a <;> rfl
  unfold out0_5
  rw [View.canon_unit_zero hz]
  simp only [View.ld_unit_zero (S := S4096x72) hz, View.ld_unit_zero (S := S72x512) hz, View.ld_unit_zero (S := S1x512) hz,
    View.ld_unit_zero (S := S512x128) hz, View.ld_unit_zero (S := S1x128) hz]
  exact pay_apply x0 x1 x2 x3 x4 p q

end Cert.ReferenceIdeal.Block

end
-- ==== Proof.RefArray.lean ====
/-
  The reference's result array: the 32 grid points' output blocks, laid end to end, are the perceptron of the whole
  argument arrays.

  Point t reads rows 4096 t … 4096 t + 4095 of x and the four parameter arrays whole, and writes rows
  4096 t … 4096 t + 4095 of the result. Entry (p, q) of what it writes is the perceptron's output q on row p of its
  block of x, which is row 4096 t + p of x: so it is entry (4096 t + p, q) of `Mlp.G` of the arguments. Row r of the
  result lies in the block of point r / 4096, so the blocks cover the array.
-/
import proofs.«159079_g2000000962606390_pallasbulk_212_29_alg».proof.Proof.Gen.ReferenceIdeal.Value
import proofs.«159079_g2000000962606390_pallasbulk_212_29_alg».proof.Proof.RefBlock

noncomputable section

namespace Cert.ReferenceIdeal.Whole

open Cert.ReferenceIdeal Cert.ReferenceIdeal.Gen Idealize.ShloMosaic Idealize.ShloMosaic.TcCoe Idealize.SL.Sem
open Idealize.ShloMosaic.ValueIdx Mlp
open Idealize.ShloMosaic.Pipeline (Dat)

variable (m : (ℓ : Loc nD τ sig) → Buf (Elt Ideal) ℓ) (ρ : Dev nD → PrngReg)

/-- The perceptron of the argument arrays as launched on core `c`. -/
abbrev result (c : Dev nD) : S131072x18.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps over the grid: x and the result move one block of rows per point; the parameters stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `x` of window 0's block at point `t` is the argument's entry at the block's offset plus `x`, axis by axis. -/
theorem iblk0_apply (c : Dev nD) (t : Fin cfg0.N) (x : S4096x72.Idx) (k : S131072x72.Idx)
    (hk0 : (k 0).val = win0_0.index t (0 : Fin 2) * 4096 + 1 * (x 0).val)
    (hk1 : (k 1).val = win0_0.index t (1 : Fin 2) * 72 + 1 * (x 1).val) :
    (iblk m c 0 t : Vec Ideal S4096x72 .f32) x = (m ((c : Thread nD τ).loc main_arg0) : S131072x72.Idx → EReal) k := by
  unfold iblk
  rw [View.read_apply]
  show V m c main_arg0 _ = m (c.tc.loc main_arg0) _
  unfold V
  congr 1
  funext a
  apply Fin.ext
  match a with
  | ⟨0, _⟩ => exact hk0.symm
  | ⟨1, _⟩ => exact hk1.symm

/-- Entry `x` of window 1's block at point `t` is the argument's entry at the block's offset plus `x`, axis by axis. -/
theorem iblk1_apply (c : Dev nD) (t : Fin cfg0.N) (x : S72x512.Idx) (k : S72x512.Idx)
    (hk0 : (k 0).val = win0_1.index t (0 : Fin 2) * 72 + 1 * (x 0).val)
    (hk1 : (k 1).val = win0_1.index t (1 : Fin 2) * 512 + 1 * (x 1).val) :
    (iblk m c 1 t : Vec Ideal S72x512 .f32) x = (m ((c : Thread nD τ).loc main_arg1) : S72x512.Idx → EReal) k := by
  unfold iblk
  rw [View.read_apply]
  show V m c main_arg1 _ = m (c.tc.loc main_arg1) _
  unfold V
  congr 1
  funext a
  apply Fin.ext
  match a with
  | ⟨0, _⟩ => exact hk0.symm
  | ⟨1, _⟩ => exact hk1.symm

/-- Entry `x` of window 2's block at point `t` is the argument's entry at the block's offset plus `x`, axis by axis. -/
theorem iblk2_apply (c : Dev nD) (t : Fin cfg0.N) (x : S1x512.Idx) (k : S1x512.Idx)
    (hk0 : (k 0).val = win0_2.index t (0 : Fin 2) * 1 + 1 * (x 0).val)
    (hk1 : (k 1).val = win0_2.index t (1 : Fin 2) * 512 + 1 * (x 1).val) :
    (iblk m c 2 t : Vec Ideal S1x512 .f32) x = (m ((c : Thread nD τ).loc main_arg2) : S1x512.Idx → EReal) k := by
  unfold iblk
  rw [View.read_apply]
  show V m c main_arg2 _ = m (c.tc.loc main_arg2) _
  unfold V
  congr 1
  funext a
  apply Fin.ext
  match a with
  | ⟨0, _⟩ => exact hk0.symm
  | ⟨1, _⟩ => exact hk1.symm

/-- Entry `x` of window 3's block at point `t` is the argument's entry at the block's offset plus `x`, axis by axis. -/
theorem iblk3_apply (c : Dev nD) (t : Fin cfg0.N) (x : S512x128.Idx) (k : S512x128.Idx)
    (hk0 : (k 0).val = win0_3.index t (0 : Fin 2) * 512 + 1 * (x 0).val)
    (hk1 : (k 1).val = win0_3.index t (1 : Fin 2) * 128 + 1 * (x 1).val) :
    (iblk m c 3 t : Vec Ideal S512x128 .f32) x = (m ((c : Thread nD τ).loc main_arg3) : S512x128.Idx → EReal) k := by
  unfold iblk
  rw [View.read_apply]
  show V m c main_arg3 _ = m (c.tc.loc main_arg3) _
  unfold V
  congr 1
  funext a
  apply Fin.ext
  match a with
  | ⟨0, _⟩ => exact hk0.symm
  | ⟨1, _⟩ => exact hk1.symm

/-- Entry `x` of window 4's block at point `t` is the argument's entry at the block's offset plus `x`, axis by axis. -/
theorem iblk4_apply (c : Dev nD) (t : Fin cfg0.N) (x : S1x128.Idx) (k : S1x128.Idx)
    (hk0 : (k 0).val = win0_4.index t (0 : Fin 2) * 1 + 1 * (x 0).val)
    (hk1 : (k 1).val = win0_4.index t (1 : Fin 2) * 128 + 1 * (x 1).val) :
    (iblk m c 4 t : Vec Ideal S1x128 .f32) x = (m ((c : Thread nD τ).loc main_arg4) : S1x128.Idx → EReal) k := by
  unfold iblk
  rw [View.read_apply]
  show V m c main_arg4 _ = m (c.tc.loc main_arg4) _
  unfold V
  congr 1
  funext a
  apply Fin.ext
  match a with
  | ⟨0, _⟩ => exact hk0.symm
  | ⟨1, _⟩ => exact hk1.symm

/-- WHAT POINT `t` WRITES BACK is block `t` of the perceptron of the argument arrays. -/
theorem flushed_eq (c : Dev nD) (t : Fin cfg0.N) :
    (dats m 0 c).flushed 5 t = ((cfg0.win 5).blk t).view.read (Elt Ideal) (result m c) := by
  rw [Value.flushed5]
  obtain ⟨e00, e01, e10, e11, e20, e21, e30, e31, e40, e41, e50, e51⟩ := idx_facts t
  have key : ∀ j : S4096x18.Idx, out0_5 (iblk m c 0 t) (iblk m c 1 t) (iblk m c 2 t) (iblk m c 3 t) (iblk m c 4 t) j
      = result m c (((cfg0.win 5).blk t).view.emb j) := by
    intro j
    obtain ⟨p, q, rfl⟩ : ∃ (p : Fin 4096) (q : Fin 18), j = ix2 p q := ⟨j 0, j 1, eq_ix2 j⟩
    refine (Block.out_apply (iblk m c 0 t) (iblk m c 1 t) (iblk m c 2 t) (iblk m c 3 t) (iblk m c 4 t) p q).trans ?_
    refine outAt_congr (fun k => ?_) (fun k h => ?_) (fun h => ?_) (fun h => ?_) ?_
    · refine iblk0_apply m c t (ix2 p k) _ ?_ ?_
      · show win0_5.index t (0 : Fin 2) * 4096 + 1 * p.val = win0_0.index t (0 : Fin 2) * 4096 + 1 * p.val
        rw [e50, e00]
      · show k.val = win0_0.index t (1 : Fin 2) * 72 + 1 * k.val
        rw [e01]; omega
    · refine iblk1_apply m c t (ix2 k h) _ ?_ ?_
      · show k.val = win0_1.index t (0 : Fin 2) * 72 + 1 * k.val
        rw [e10]; omega
      · show h.val = win0_1.index t (1 : Fin 2) * 512 + 1 * h.val
        rw [e11]; omega
    · refine iblk2_apply m c t (ix2 0 h) _ ?_ ?_
      · show 0 = win0_2.index t (0 : Fin 2) * 1 + 1 * 0
        rw [e20]
      · show h.val = win0_2.index t (1 : Fin 2) * 512 + 1 * h.val
        rw [e21]; omega
    · refine iblk3_apply m c t (ix2 h (lane q)) _ ?_ ?_
      · show h.val = win0_3.index t (0 : Fin 2) * 512 + 1 * h.val
        rw [e30]; omega
      · show win0_5.index t (1 : Fin 2) * 18 + 1 * q.val = win0_3.index t (1 : Fin 2) * 128 + 1 * q.val
        rw [e51, e31]
    · refine iblk4_apply m c t (ix2 0 (lane q)) _ ?_ ?_
      · show 0 = win0_4.index t (0 : Fin 2) * 1 + 1 * 0
        rw [e40]
      · show win0_5.index t (1 : Fin 2) * 18 + 1 * q.val = win0_4.index t (1 : Fin 2) * 128 + 1 * q.val
        rw [e51, e41]
  exact funext key

/-- An index of the result is in point `t`'s block iff each coordinate is in the block's range on its axis. -/
theorem mem_blk (t : Fin cfg0.N) (i : S131072x18.Idx) :
    i ∈ ((cfg0.win 5).blk t).view.set ↔ ∀ a : Fin 2, win0_5.index t a * S4096x18.size a ≤ (i a).val
      ∧ (i a).val < win0_5.index t a * S4096x18.size a + S4096x18.size a := by
  show i ∈ ((View.whole main_v0).slice (win0_5.rect t)).set ↔ _
  rw [View.set_slice_whole, Rect.mem_set_unit]
  exact Iff.rfl

/-- THE RESULT ARRAY after the run: the perceptron of the argument arrays. Row r is in the block of point r / 4096. -/
theorem final (c : Dev nD) : (dats m 0 c).arrAt 5 cfg0.N = result m c :=
  (dats m 0 c).arrAt_eq_of_cover 5 (result m c) (fun t _ => flushed_eq m c t) fun i => by
    have hi0 : (i 0).val < 131072 := (i 0).isLt
    have hi1 : (i 1).val < 18 := (i 1).isLt
    have hN : cfg0.N = 32 := N_0
    let t : Fin cfg0.N := ⟨(i 0).val / 4096, by rw [hN]; omega⟩
    obtain ⟨-, -, -, -, -, -, -, -, -, -, e50, e51⟩ := idx_facts t
    refine ⟨t, flush0_5 t, ?_⟩
    rw [mem_blk]
    intro a
    match a with
    | ⟨0, _⟩ =>
      show win0_5.index t (0 : Fin 2) * 4096 ≤ (i 0).val ∧ (i 0).val < win0_5.index t (0 : Fin 2) * 4096 + 4096
      rw [e50]; show (i 0).val / 4096 * 4096 ≤ (i 0).val ∧ (i 0).val < (i 0).val / 4096 * 4096 + 4096; omega
    | ⟨1, _⟩ =>
      show win0_5.index t (1 : Fin 2) * 18 ≤ (i 1).val ∧ (i 1).val < win0_5.index t (1 : Fin 2) * 18 + 18
      rw [e51]; omega

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.Whole

end
-- ==== Proof.lean ====
/-
  A two-layer perceptron with a rectifier, out = max (x · W1 + b1) 0 · W2 + b2 restricted to the 18 action columns,
  computed by two tiled programs over 131072 rows.

  The reference tiles the rows by 4096 and, per tile, forms x · W1, adds b1, rectifies, forms the product with W2 over
  the 128 padded lanes, adds b2 and keeps lanes 0 … 17. The kernel tiles the rows by 8192, splits a tile into four
  chunks of 2048 rows, folds b1 into the first product (a column of ones appended to x, the row b1 appended to W1),
  computes both products transposed with the weights as the left factor and only the first 32 columns of W2, and
  transposes back before adding b2.

  At the ideal values every product is an exact finite sum over its one contracted axis, a change of float format is
  the identity, and the rows of the result depend on their own row of x only. So each program's result array is the
  same function `Mlp.G` of the five argument arrays, entry by entry (Proof/RefArray.lean, Proof/KerArray.lean over
  Proof/RefBlock.lean, Proof/KerBlock.lean). The one algebraic step (Proof/Spec.lean, `Mlp.outAt_of_folded`) splits
  the 73rd term b1 · 1 off the kernel's first sum and commutes each product; sums are not regrouped across a
  product and nothing is cancelled, so the equality holds on all extended reals and the finiteness precondition is
  not used. The ideal pass rewrote nothing, so the kernel's idealization is its own text. The three frames are the
  generated ones.
-/
import proofs.«159079_g2000000962606390_pallasbulk_212_29_alg».proof.Defs
import proofs.«159079_g2000000962606390_pallasbulk_212_29_alg».proof.Proof.Gen.Kernel
import proofs.«159079_g2000000962606390_pallasbulk_212_29_alg».proof.Proof.Gen.Kernel.Frame
import proofs.«159079_g2000000962606390_pallasbulk_212_29_alg».proof.Proof.Gen.KernelIdeal
import proofs.«159079_g2000000962606390_pallasbulk_212_29_alg».proof.Proof.Gen.KernelIdeal.Frame
import proofs.«159079_g2000000962606390_pallasbulk_212_29_alg».proof.Proof.Gen.ReferenceIdeal
import proofs.«159079_g2000000962606390_pallasbulk_212_29_alg».proof.Proof.Gen.ReferenceIdeal.Frame
import proofs.«159079_g2000000962606390_pallasbulk_212_29_alg».proof.Proof.Gen.Pre_finite_inputs
import proofs.«159079_g2000000962606390_pallasbulk_212_29_alg».proof.Proof.KerArray
import proofs.«159079_g2000000962606390_pallasbulk_212_29_alg».proof.Proof.RefArray
import Idealize.ShloMosaic.Adequacy
import Idealize.ShloMosaic.Init

noncomputable section

namespace Cert.Proof

open Idealize.ShloMosaic Idealize.ShloMosaic.TcCoe Idealize.SL.Sem

/-- Each program runs and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- No operation of the kernel was rewritten for its idealization. -/
theorem preserves : Cert.preserves_Kernel_KernelIdeal := trivial

/-- From memories that agree on the five arguments, both programs end with the result array at the perceptron of
    those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  show Mlp.G _ _ _ _ _ = Mlp.G _ _ _ _ _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
